-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384 : Shape := ⟨2, ![16, 16384]⟩
abbrev S16384x16384 : Shape := ⟨2, ![16384, 16384]⟩
abbrev S_ : Shape := ⟨0, ![]⟩

class Facts : Prop where
  bcast_S_S16x16384 : S_.BroadcastsInDim S16x16384 (![] : Fin 0 → Fin S16x16384.rank)
  reducesTo_S16x16384_S_d0_1 : S16x16384.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16x16384 .f32) (main_arg1 : FVec F S16384x16384 .f32) : IVec S_ 1 :=
  let main_v0 : FVec F S16x16384 .f32 := Host.absf main_arg0
  let main_cst : FVec F S_ .f32 := constant S_ .f32 0x7F800000#32
  let main_v1 : FVec F S16x16384 .f32 := broadcastInDim S16x16384 ![] bcast_S_S16x16384 main_cst
  let main_v2 : IVec S16x16384 1 := cmpf .olt main_v0 main_v1
  let main_c : IVec S_ 1 := constantI S_ 1 1#1
  let main_v3 : IVec S_ 1 := (fun x v => Host.reduce IntOp.andi x v reducesTo_S16x16384_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  main_v8
-- ==== Kernel.lean ====
abbrev S16x16384 : Shape := ⟨2, ![16, 16384]⟩
abbrev S16384x16384 : Shape := ⟨2, ![16384, 16384]⟩
abbrev S16x1024 : Shape := ⟨2, ![16, 1024]⟩
abbrev S1024x2048 : Shape := ⟨2, ![1024, 2048]⟩
abbrev S16x2048 : Shape := ⟨2, ![16, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16x16384, .f32⟩
  | .hbm, ⟨1, _⟩ => ⟨S16384x16384, .f32⟩
  | .hbm, ⟨2, _⟩ => ⟨S16x16384, .f32⟩
  | .local _ .vmem, ⟨0, _⟩ => ⟨S16x1024, .f32⟩
  | .local _ .vmem, ⟨1, _⟩ => ⟨S16x1024, .f32⟩
  | .local _ .vmem, ⟨2, _⟩ => ⟨S1024x2048, .f32⟩
  | .local _ .vmem, ⟨3, _⟩ => ⟨S1024x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | _, _ => ⟨S16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S16x1024_S16x1024_0_0 : ∀ a, (![0, 0] : Fin 2 → Nat) a + S16x1024.size a ≤ S16x1024.size a
  h_S16x1024 : 0 < S16x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  dot_S16x1024_S1024x2048_S16x2048_1_0_0_1_n_n_wf : DotDims.WF S16x1024 S1024x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x16384.size a
  hwx0_0 : ∀ i : grid0.Coords, EltTy.bits .f32 = 32 ∨ (Rect.block (s := S16x16384) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .f32 = 32 ∨ (Rect.block (s := S16384x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x16384.size a
  hwx0_2 : ∀ i : grid0.Coords, EltTy.bits .f32 = 32 ∨ (Rect.block (s := S16x16384) S16x2048.size (cc0_transform_2 i) (hinb0_2 i)).WholeWords (EltTy.packing .f32)

variable [Facts₀]

def dot_S16x1024_S1024x2048_S16x2048_1_0_0_1_n_n : DotDims S16x1024 S1024x2048 S16x2048 where
  lhsContracting := [1]
  rhsContracting := [0]
  lhsNonContracting := [0]
  rhsNonContracting := [1]
  lhsBatch := []
  rhsBatch := []
  wf := dot_S16x1024_S1024x2048_S16x2048_1_0_0_1_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x16384 : Shape := ⟨2, ![16, 16384]⟩
abbrev S16384x16384 : Shape := ⟨2, ![16384, 16384]⟩

abbrev nBuf : Space → Nat
  | .hbm => 3
  | .vmem => 0
  | .smem => 0
  | _ => 0

abbrev bufTy : (tb : Table) → Fin (tcTables nBuf tb) → BufTy
  | .hbm, ⟨0, _⟩ => ⟨S16x16384, .f32⟩
  | .hbm, ⟨1, _⟩ => ⟨S16384x16384, .f32⟩
  | .hbm, ⟨2, _⟩ => ⟨S16x16384, .f32⟩
  | _, _ => ⟨S16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x16384_S16384x16384_S16x16384_1_0_0_1_n_n_wf : DotDims.WF S16x16384 S16384x16384 S16x16384 [1] [0] [0] [1] [] []

variable [Facts₀]

def dot_S16x16384_S16384x16384_S16x16384_1_0_0_1_n_n : DotDims S16x16384 S16384x16384 S16x16384 where
  lhsContracting := [1]
  rhsContracting := [0]
  lhsNonContracting := [0]
  rhsNonContracting := [1]
  lhsBatch := []
  rhsBatch := []
  wf := dot_S16x16384_S16384x16384_S16x16384_1_0_0_1_n_n_wf

class Facts : Prop extends Facts₀ where

variable [Facts]
-- ==== Proof.Step.lean ====
/-
  One grid point of the K-blocked product, as a function of what it loads.

  The grid is 8 column blocks by 16 contraction blocks; point t works on contraction block t % 16 of column block
  t / 16. Every point replaces the accumulator acc by  acc + a · b , where a is the [16,1024] block of the left
  operand and b the [1024,2048] block of the right one (the two narrowing casts in front of the product are the
  identity on extended reals). The first point of a run (t % 16 = 0) first overwrites the accumulator with zeros, so
  there  acc = 0 ; the last point (t % 16 = 15) also copies the new accumulator to the output block.

  First part, for any float instance: what each of the three control cases leaves in the accumulator, and what the
  last case leaves in the output block, is that one expression of the loaded blocks. Second part, on extended reals:
  the expression read at row p, column q is  acc[p,q] + Σ_{k<1024} a[p,k]·b[k,q] .
-/
import proofs.«159576_j28776280883297_1_alg».proof.Proof.Gen.KernelIdeal.Value
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem

namespace Cert.KernelIdeal.Step

open Cert.KernelIdeal Cert.KernelIdeal.Gen ValueIdx

variable {F : FTy → Type} [FloatOps F]

/-- The origin of a rank-2 block, in the two spellings the lemmas about whole-block accesses use. -/
theorem origin2 : (![0, 0] : Fin 2 → Nat) = fun _ => 0 := funext fun a => by fin_cases a <;> rfl

/-! ## The three control cases leave one expression -/

/-- First point of a run: the accumulator is overwritten with zeros, read back, and left at  0 + a·b . -/
theorem acc_first (c : Dev nD) (i : grid0.Coords) (arg2 : Memref sig .tc .vmem S16x1024 .f32) (harg2 : arg2.IsWhole)
    (arg3 : Memref sig .tc .vmem S1024x2048 .f32) (harg3 : arg3.IsWhole) (arg4 : Memref sig .tc .vmem S16x2048 .f32) (harg4 : arg4.IsWhole)
    (arg5 : Memref sig .tc .vmem S16x2048 .f32) (harg5 : arg5.IsWhole) (hc0 : cond0_0 i) (hc1 : ¬cond0_1 i)
    (x0 : Vec F S16x1024 .f32) (x1 : Vec F S1024x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S16x2048) origin2, View.readCov_unit_zero (S := S16x2048) _ origin2]
  simp only [View.readAt_eq_ld, harg2.read_unread, harg3.read_unread, View.ld_unit_zero (S := S16x1024) origin2,
    View.ld_unit_zero (S := S1024x2048) origin2]

/-- A middle point: the accumulator the point before left, plus this point's product. -/
theorem acc_middle (c : Dev nD) (i : grid0.Coords) (arg2 : Memref sig .tc .vmem S16x1024 .f32) (harg2 : arg2.IsWhole)
    (arg3 : Memref sig .tc .vmem S1024x2048 .f32) (harg3 : arg3.IsWhole) (arg4 : Memref sig .tc .vmem S16x2048 .f32) (harg4 : arg4.IsWhole)
    (arg5 : Memref sig .tc .vmem S16x2048 .f32) (harg5 : arg5.IsWhole) (hc0 : ¬cond0_0 i) (hc1 : ¬cond0_1 i)
    (x0 : Vec F S16x1024 .f32) (x1 : Vec F S1024x2048 .f32) (acc : Vec F S16x2048 .f32) :
    sout0_B_0 c i arg2 harg2 arg3 harg3 arg4 harg4 arg5 harg5 hc0 hc1 x0 x1 acc = k0_pay2 x0 x1 acc := by
  unfold sout0_B_0
  rw [View.read_writes_eq_canon _ _ _ (scover0_B_0 c i arg2 harg2 arg3 harg3 arg4 harg4 arg5 harg5 hc0 hc1 x0 x1 acc)]
  unfold kernelRun0_B
  dsimp only
  sl_unfold_words
  rw [View.canon_unit_zero origin2]
  simp only [View.readAt_eq_ld, harg2.read_unread, harg3.read_unread, harg5.read_unread, View.ld_unit_zero (S := S16x1024) origin2,
    View.ld_unit_zero (S := S1024x2048) origin2, View.ld_unit_zero (S := S16x2048) origin2]

/-- The last point of a run leaves the same in the accumulator … -/
theorem acc_last (c : Dev nD) (i : grid0.Coords) (arg2 : Memref sig .tc .vmem S16x1024 .f32) (harg2 : arg2.IsWhole)
    (arg3 : Memref sig .tc .vmem S1024x2048 .f32) (harg3 : arg3.IsWhole) (arg4 : Memref sig .tc .vmem S16x2048 .f32) (harg4 : arg4.IsWhole)
    (arg5 : Memref sig .tc .vmem S16x2048 .f32) (harg5 : arg5.IsWhole) (hc0 : ¬cond0_0 i) (hc1 : cond0_1 i)
    (x0 : Vec F S16x1024 .f32) (x1 : Vec F S1024x2048 .f32) (acc : Vec F S16x2048 .f32) :
    sout0_C_0 c i arg2 harg2 arg3 harg3 arg4 harg4 arg5 harg5 hc0 hc1 x0 x1 acc = k0_pay2 x0 x1 acc := by
  unfold sout0_C_0
  rw [View.read_writes_eq_canon _ _ _ (scover0_C_0 c i arg2 harg2 arg3 harg3 arg4 harg4 arg5 harg5 hc0 hc1 x0 x1 acc)]
  unfold kernelRun0_C
  dsimp only
  sl_unfold_words
  rw [View.canon_unit_zero origin2]
  simp only [View.readAt_eq_ld, harg2.read_unread, harg3.read_unread, harg5.read_unread, View.ld_unit_zero (S := S16x1024) origin2,
    View.ld_unit_zero (S := S1024x2048) origin2, View.ld_unit_zero (S := S16x2048) origin2]

/-- … and copies it to the output block: the block holds the accumulator read back after the update. -/
theorem out_last (c : Dev nD) (i : grid0.Coords) (arg2 : Memref sig .tc .vmem S16x1024 .f32) (harg2 : arg2.IsWhole)
    (arg3 : Memref sig .tc .vmem S1024x2048 .f32) (harg3 : arg3.IsWhole) (arg4 : Memref sig .tc .vmem S16x2048 .f32) (harg4 : arg4.IsWhole)
    (arg5 : Memref sig .tc .vmem S16x2048 .f32) (harg5 : arg5.IsWhole) (hc0 : ¬cond0_0 i) (hc1 : cond0_1 i)
    (x0 : Vec F S16x1024 .f32) (x1 : Vec F S1024x2048 .f32) (acc : Vec F S16x2048 .f32) :
    out0_C_2 c i arg2 harg2 arg3 harg3 arg4 harg4 arg5 harg5 hc0 hc1 x0 x1 acc = k0_pay2 x0 x1 acc := by
  unfold out0_C_2
  rw [View.read_writes_eq_canon _ _ _ (cover0_C_2 c i arg2 harg2 arg3 harg3 arg4 harg4 arg5 harg5 hc0 hc1 x0 x1 acc)]
  unfold kernelRun0_C
  dsimp only
  sl_unfold_words
  rw [View.canon_unit_zero origin2]
  simp only [View.readCov_unit_zero (S := S16x2048) _ origin2, View.readAt_eq_ld, harg2.read_unread, harg3.read_unread,
    harg5.read_unread, View.ld_unit_zero (S := S16x1024) origin2, View.ld_unit_zero (S := S1024x2048) origin2,
    View.ld_unit_zero (S := S16x2048) origin2]

/-! ## The step at an index, on extended reals -/

/-- Axis 0 of the left operand's index in the block product is the output row. -/
theorem lhs_row (i : S16x2048.Idx) (q : dot_S16x1024_S1024x2048_S16x2048_1_0_0_1_n_n.contr.Idx) :
    (dot_S16x1024_S1024x2048_S16x2048_1_0_0_1_n_n.lhsIdx i q 0).val = (i 0).val := by
  unfold DotDims.lhsIdx
  rw [dif_neg (show ¬(0 : Fin S16x1024.rank) ∈ dot_S16x1024_S1024x2048_S16x2048_1_0_0_1_n_n.lhsBatch by decide), dif_pos (show (0 : Fin S16x1024.rank) ∈ dot_S16x1024_S1024x2048_S16x2048_1_0_0_1_n_n.lhsNonContracting by decide)]
  rfl
/-- Axis 1 of the left operand's index is the contraction index. -/
theorem lhs_contr (i : S16x2048.Idx) (q : dot_S16x1024_S1024x2048_S16x2048_1_0_0_1_n_n.contr.Idx) :
    (dot_S16x1024_S1024x2048_S16x2048_1_0_0_1_n_n.lhsIdx i q 1).val = (q ⟨0, by decide⟩).val :=
  dot_S16x1024_S1024x2048_S16x2048_1_0_0_1_n_n.lhsIdx_val_of_single rfl i q
/-- Axis 0 of the right operand's index is the contraction index. -/
theorem rhs_contr (i : S16x2048.Idx) (q : dot_S16x1024_S1024x2048_S16x2048_1_0_0_1_n_n.contr.Idx) :
    (dot_S16x1024_S1024x2048_S16x2048_1_0_0_1_n_n.rhsIdx i q 0).val = (q ⟨0, by decide⟩).val :=
  dot_S16x1024_S1024x2048_S16x2048_1_0_0_1_n_n.rhsIdx_val_of_single rfl i q
/-- Axis 1 of the right operand's index is the output column. -/
theorem rhs_col (i : S16x2048.Idx) (q : dot_S16x1024_S1024x2048_S16x2048_1_0_0_1_n_n.contr.Idx) :
    (dot_S16x1024_S1024x2048_S16x2048_1_0_0_1_n_n.rhsIdx i q 1).val = (i 1).val := by
  unfold DotDims.rhsIdx
  rw [dif_neg (show ¬(1 : Fin S1024x2048.rank) ∈ dot_S16x1024_S1024x2048_S16x2048_1_0_0_1_n_n.rhsBatch by decide), dif_pos (show (1 : Fin S1024x2048.rank) ∈ dot_S16x1024_S1024x2048_S16x2048_1_0_0_1_n_n.rhsNonContracting by decide)]
  rfl

/-- The block product into a zero accumulator, read at row p and column q: Σ_{k<1024} a[p,k]·b[k,q]. -/
theorem block_product_apply (a : FVec Ideal S16x1024 .bf16) (b : FVec Ideal S1024x2048 .bf16) (p : Fin 16) (q : Fin 2048) :
    matmul dot_S16x1024_S1024x2048_S16x2048_1_0_0_1_n_n none a b (constant (F := Ideal) S16x2048 .f32 0x00000000#32) (ix2 p q)
      = ∑ k : Fin 1024, a (ix2 p k) * b (ix2 k q) := by
  simp only [matmul]
  rw [Ideal.matmul_constant_zero_apply, ← Equiv.sum_comp (contrEquiv1 dot_S16x1024_S1024x2048_S16x2048_1_0_0_1_n_n 1024 rfl rfl).symm]
  refine Finset.sum_congr rfl fun k _ => ?_
  have hk := contrEquiv1_symm_val dot_S16x1024_S1024x2048_S16x2048_1_0_0_1_n_n 1024 rfl rfl k
  have el : dot_S16x1024_S1024x2048_S16x2048_1_0_0_1_n_n.lhsIdx (ix2 p q) ((contrEquiv1 dot_S16x1024_S1024x2048_S16x2048_1_0_0_1_n_n 1024 rfl rfl).symm k) = ix2 p k := funext fun d => Fin.ext (by
    match d with
    | ⟨0, _⟩ => exact lhs_row _ _
    | ⟨1, _⟩ => exact (lhs_contr _ _).trans hk)
  have er : dot_S16x1024_S1024x2048_S16x2048_1_0_0_1_n_n.rhsIdx (ix2 p q) ((contrEquiv1 dot_S16x1024_S1024x2048_S16x2048_1_0_0_1_n_n 1024 rfl rfl).symm k) = ix2 k q := funext fun d => Fin.ext (by
    match d with
    | ⟨0, _⟩ => exact (rhs_contr _ _).trans hk
    | ⟨1, _⟩ => exact rhs_col _ _)
  rw [el, er]

/-- The zero block the first point of a run stores is 0 everywhere. -/
theorem zeros_apply (j : S16x2048.Idx) : k0_pay1 (F := Ideal) j = 0 := by
  unfold k0_pay1
  rw [shapeCast_self]
  show Ideal.ofBits .f32 0x00000000#32 = 0
  exact Ideal.ofBits_zero_f32

/-- One step at row p, column q:  acc[p,q] + Σ_{k<1024} a[p,k]·b[k,q]  (the narrowing casts are the identity). -/
theorem step_apply (x0 : Vec Ideal S16x1024 .f32) (x1 : Vec Ideal S1024x2048 .f32) (acc : Vec Ideal S16x2048 .f32)
    (p : Fin 16) (q : Fin 2048) :
    k0_pay2 (F := Ideal) x0 x1 acc (ix2 p q) = acc (ix2 p q) + ∑ k : Fin 1024, x0 (ix2 p k) * x1 (ix2 k q) := by
  unfold k0_pay2
  rw [shapeCast_self]
  refine (addf_apply _ _ _).trans ?_
  refine congrArg (acc (ix2 p q) + ·) ?_
  exact block_product_apply _ _ p q

end Cert.KernelIdeal.Step

end
-- ==== Proof.Blocks.lean ====
/-
  Where the blocks sit in the arrays.

  Point t of the 8 × 16 grid is column block t / 16, contraction block t % 16. Its left block is rows 0..15, columns
  1024·(t % 16) .. +1023 of the [16,16384] left operand; its right block is rows 1024·(t % 16) .. +1023, columns
  2048·(t / 16) .. +2047 of the [16384,16384] right operand; the output block is columns 2048·(t / 16) .. +2047 of the
  [16,16384] result. These are layout facts and hold at every float instance.
-/
import proofs.«159576_j28776280883297_1_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen ValueIdx

variable {F : FTy → Type} [FloatOps F]
variable (m : (ℓ : Loc nD τ sig) → Buf (Elt F) ℓ)

/-- The three printed index maps over the grid: block (0, t % 16) of the left operand, block (t % 16, t / 16) of the
    right one, block (0, t / 16) of the result. -/
theorem index_maps : ∀ t : Fin cfg0.N,
    win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N, _)

/-- The two operands as the region finds them, and their blocks at a point, at their literal types. -/
abbrev lhsArr (c : Dev nD) : Vec F S16x16384 .f32 := V m c main_arg0
abbrev rhsArr (c : Dev nD) : Vec F S16384x16384 .f32 := V m c main_arg1
abbrev lhsBlk (c : Dev nD) (t : Fin cfg0.N) : Vec F S16x1024 .f32 := iblk m c 0 t
abbrev rhsBlk (c : Dev nD) (t : Fin cfg0.N) : Vec F S1024x2048 .f32 := iblk m c 1 t

/-- Entry (p, k) of the left block at point t is entry (p, 1024·(t % 16) + k) of the left operand. -/
theorem lhsBlk_apply (c : Dev nD) (t : Fin cfg0.N) (p : Fin 16) (k : Fin 1024) (k' : Fin 16384)
    (hk : k'.val = t.val % 16 * 1024 + k.val) :
    lhsBlk m c t (ix2 p k) = lhsArr m c (ix2 p k') := by
  show V m c main_arg0 (((cfg0.win 0).blk t).view.emb (ix2 p k)) = V m c main_arg0 (ix2 p k')
  refine congrArg _ ?_
  obtain ⟨e0, e1, -⟩ := index_maps t
  funext a; apply Fin.ext
  match a with
  | ⟨0, _⟩ => show win0_0.index t (0 : Fin 2) * 16 + 1 * p.val = p.val; omega
  | ⟨1, _⟩ => show win0_0.index t (1 : Fin 2) * 1024 + 1 * k.val = k'.val; omega

/-- Entry (k, q) of the right block at point t is entry (1024·(t % 16) + k, 2048·(t / 16) + q) of the right operand. -/
theorem rhsBlk_apply (c : Dev nD) (t : Fin cfg0.N) (k : Fin 1024) (q : Fin 2048) (k' q' : Fin 16384)
    (hk : k'.val = t.val % 16 * 1024 + k.val) (hq : q'.val = t.val / 16 * 2048 + q.val) :
    rhsBlk m c t (ix2 k q) = rhsArr m c (ix2 k' q') := by
  show V m c main_arg1 (((cfg0.win 1).blk t).view.emb (ix2 k q)) = V m c main_arg1 (ix2 k' q')
  refine congrArg _ ?_
  obtain ⟨-, -, e2, e3, -⟩ := index_maps t
  funext a; apply Fin.ext
  match a with
  | ⟨0, _⟩ => show win0_1.index t (0 : Fin 2) * 1024 + 1 * k.val = k'.val; omega
  | ⟨1, _⟩ => show win0_1.index t (1 : Fin 2) * 2048 + 1 * q.val = q'.val; omega

end Cert.KernelIdeal.Blocks

end
-- ==== Proof.Fold.lean ====
/-
  The accumulator over one run of sixteen points.

  Write A for the left operand and B for the right one. Point n adds to the accumulator, at row p and local column q,
      addend n (p, q) = Σ_{k<1024} A[p, 1024·(n % 16) + k] · B[1024·(n % 16) + k, 2048·(n / 16) + q] ,
  starting from 0 at the first point of a run (n % 16 = 0). So after the last point of the run that starts at point b
  (a multiple of 16) the accumulator holds  Σ_{s<16} addend (b + s) : sixteen consecutive slices of one contraction.
  At that last point the output block is a copy of the accumulator.
-/
import proofs.«159576_j28776280883297_1_alg».proof.Proof.Step
import proofs.«159576_j28776280883297_1_alg».proof.Proof.Blocks

noncomputable section

open Idealize.ShloMosaic Idealize.ShloMosaic.TcCoe Idealize.SL.Sem

namespace Cert.KernelIdeal.Fold

open Cert.KernelIdeal Cert.KernelIdeal.Gen Cert.KernelIdeal.Value ValueIdx
open Cert.KernelIdeal.Blocks (lhsArr rhsArr lhsBlk rhsBlk)

/-! ## The output block at the last point of a run is the accumulator (any float instance) -/

section
variable {F : FTy → Type} [FloatOps F]
variable (m : (ℓ : Loc nD τ sig) → Buf (Elt F) ℓ)

theorem out_eq_acc (c : Dev nD) (t : Fin cfg0.N) (h15 : t.val % 16 = 15) :
    (outsAt0 m c t.val t.isLt).1 = (outsAt0 m c t.val t.isLt).2 := by
  have h0 : ¬t.val % 16 = 0 := by omega
  rw [outsAt0_C m c t h0 h15]
  dsimp only
  exact (Step.out_last (F := F) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h15) (lhsBlk m c t) (rhsBlk m c t)
      (outsAt0 m c (t.val - 1) (Nat.lt_of_le_of_lt (Nat.sub_le _ _) t.isLt)).2).trans
    (Step.acc_last (F := F) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h15) (lhsBlk m c t) (rhsBlk m c t)
      (outsAt0 m c (t.val - 1) (Nat.lt_of_le_of_lt (Nat.sub_le _ _) t.isLt)).2).symm
end

/-! ## On extended reals -/

variable (m : (ℓ : Loc nD τ sig) → Buf (Elt Ideal) ℓ)

/-- The k-th product of row p of A with column q of B, for any naturals q and k: 0 outside the arrays, so that a
    point's addend is a function of every natural. -/
def term (c : Dev nD) (p : Fin 16) (q k : ℕ) : EReal :=
  if h : k < 16384 ∧ q < 16384 then lhsArr m c (ix2 p ⟨k, h.1⟩) * rhsArr m c (ix2 ⟨k, h.1⟩ ⟨q, h.2⟩) else 0

/-- What point n adds at an entry of the [16,2048] accumulator: its slice of the contraction. -/
def addend (c : Dev nD) (n : ℕ) (j : S16x2048.Idx) : EReal :=
  ∑ k : Fin 1024, term m c (j 0) (n / 16 * 2048 + (j 1).val) (n % 16 * 1024 + k.val)

/-- A point's block product is its addend: the two blocks read back into A and B. -/
theorem products_eq_addend (c : Dev nD) (n : ℕ) (hb : n < cfg0.N) (p : Fin 16) (q : Fin 2048) :
    ∑ k : Fin 1024, lhsBlk m c ⟨n, hb⟩ (ix2 p k) * rhsBlk m c ⟨n, hb⟩ (ix2 k q) = addend m c n (ix2 p q) := by
  have hN : n < 128 := lt_of_lt_of_eq hb (show cfg0.N = 128 from N_0)
  unfold addend
  refine Finset.sum_congr rfl fun k _ => ?_
  have hk : n % 16 * 1024 + k.val < 16384 := by have := k.isLt; omega
  have hq : n / 16 * 2048 + q.val < 16384 := by have := q.isLt; omega
  show _ = term m c p (n / 16 * 2048 + q.val) (n % 16 * 1024 + k.val)
  unfold term
  rw [dif_pos ⟨hk, hq⟩, Blocks.lhsBlk_apply m c ⟨n, hb⟩ p k ⟨_, hk⟩ rfl, Blocks.rhsBlk_apply m c ⟨n, hb⟩ k q ⟨_, hk⟩ ⟨_, hq⟩ rfl rfl]

/-- One step of the accumulator: at the first point of a run it is 0 plus the point's addend, elsewhere what the
    point before left plus the point's addend. -/
theorem scratch_step (c : Dev nD) (n : ℕ) (hb : n < cfg0.N) (acc : Vec Ideal S16x2048 .f32) (j : S16x2048.Idx) :
    scAt0_0 m c n hb acc j = (if n % 16 = 0 then 0 else acc j) + addend m c n j := by
  obtain ⟨p, q, rfl⟩ : ∃ (p : Fin 16) (q : Fin 2048), j = ix2 p q := ⟨j 0, j 1, eq_ix2 j⟩
  unfold scAt0_0
  by_cases h0 : n % 16 = 0
  · have h1 : ¬n % 16 = 15 := by omega
    rw [dif_pos h0, dif_neg h1, if_pos h0]
    refine (congrFun (Step.acc_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
      ((hcond0_0 ⟨n, hb⟩).mpr h0) (fun h => h1 ((hcond0_1 ⟨n, hb⟩).mp h)) (lhsBlk m c ⟨n, hb⟩) (rhsBlk m c ⟨n, hb⟩)) (ix2 p q)).trans ?_
    refine (Step.step_apply (lhsBlk m c ⟨n, hb⟩) (rhsBlk m c ⟨n, hb⟩) (k0_pay1 (F := Ideal)) p q).trans ?_
    rw [Step.zeros_apply, products_eq_addend m c n hb p q]
  · rw [dif_neg h0, if_neg h0]
    by_cases h1 : n % 16 = 15
    · rw [dif_pos h1]
      refine (congrFun (Step.acc_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
        (fun h => h0 ((hcond0_0 ⟨n, hb⟩).mp h)) ((hcond0_1 ⟨n, hb⟩).mpr h1) (lhsBlk m c ⟨n, hb⟩) (rhsBlk m c ⟨n, hb⟩) acc) (ix2 p q)).trans ?_
      refine (Step.step_apply (lhsBlk m c ⟨n, hb⟩) (rhsBlk m c ⟨n, hb⟩) acc p q).trans ?_
      rw [products_eq_addend m c n hb p q]
    · rw [dif_neg h1]
      refine (congrFun (Step.acc_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _)
        (fun h => h0 ((hcond0_0 ⟨n, hb⟩).mp h)) (fun h => h1 ((hcond0_1 ⟨n, hb⟩).mp h)) (lhsBlk m c ⟨n, hb⟩) (rhsBlk m c ⟨n, hb⟩) acc) (ix2 p q)).trans ?_
      refine (Step.step_apply (lhsBlk m c ⟨n, hb⟩) (rhsBlk m c ⟨n, hb⟩) acc p q).trans ?_
      rw [products_eq_addend m c n hb p q]

/-- After the last point of a run the accumulator holds the sum of the run's sixteen addends: the fold of the steps
    unrolled at an entry (a reset to 0 + addend, then fifteen steps each adding its addend). -/
theorem scratch_after_run (c : Dev nD) (t : Fin cfg0.N) (h15 : t.val % 16 = 15) (j : S16x2048.Idx) :
    (outsAt0 m c t.val t.isLt).2 j = ∑ s ∈ Finset.range 16, addend m c (16 * (t.val / 16) + s) j := by
  have hN : t.val < 128 := lt_of_lt_of_eq t.isLt (show cfg0.N = 128 from N_0)
  have hrun := Pipeline.accAt_add_apply (N := cfg0.N) (ι := S16x2048.Idx) (β := EReal)
    (fun n h => scAt0_0 m c n h (VS0_0.read (Elt Ideal) VS0_0.junk)) (scAt0_0 m c) (fun _ => 0) (addend m c)
    (16 * (t.val / 16)) 15
    (fun h i => by rw [scratch_step m c _ h _ i, if_pos (by omega)])
    (fun n h acc i hlo hhi => by rw [scratch_step m c n h acc i, if_neg (by omega)])
    (t.val % 16) (by omega) (by omega) j
  refine (congrFun (soutsAt0_0_eq m c t) j).trans (hrun.trans ?_)
  simp only [zero_add, h15]

end Cert.KernelIdeal.Fold

end
-- ==== Proof.Regroup.lean ====
/-
  A sum over J·K consecutive naturals taken K at a time: the one law that joins a contraction done in one piece to the
  same contraction done block by block. It holds in every commutative monoid, so on the extended reals it asks
  nothing of the summands (no finiteness): only the grouping and order of one sum change.
-/
import Mathlib.Algebra.BigOperators.Fin

namespace Cert.Regroup

variable {β : Type*} [AddCommMonoid β]

/-- Σ_{i < J·K} f i = Σ_{s < J} Σ_{j < K} f (s·K + j): by induction on the number of blocks, splitting off the last. -/
theorem sum_range_blocks (f : ℕ → β) (K : ℕ) :
    ∀ J : ℕ, ∑ i ∈ Finset.range (J * K), f i = ∑ s ∈ Finset.range J, ∑ j ∈ Finset.range K, f (s * K + j)
  | 0 => by simp
  | J + 1 => by
    rw [Nat.succ_mul, Finset.sum_range_add, sum_range_blocks f K J, Finset.sum_range_succ]

/-- The same with the whole range and each block indexed by `Fin`, the blocks still by a range. -/
theorem sum_fin_blocks (f : ℕ → β) (J K : ℕ) :
    ∑ i : Fin (J * K), f i.val = ∑ s ∈ Finset.range J, ∑ j : Fin K, f (s * K + j.val) := by
  rw [← Finset.sum_range (fun i => f i), sum_range_blocks f K J]
  exact Finset.sum_congr rfl fun s _ => Finset.sum_range (fun j => f (s * K + j))

end Cert.Regroup
-- ==== Proof.Product.lean ====
/-
  The specification: the product of a [16,16384] array with a [16384,16384] array over the extended reals,
  entry (p, q) = Σ_{k<16384} A[p,k] · B[k,q]. Both programs are shown to end with this function of their arguments.
-/
import Idealize.ShloMosaic.PureOps.Ideal
import Idealize.ShloMosaic.Lib.ValueIdx

noncomputable section

namespace Cert.Product

open Idealize.ShloMosaic ValueIdx

/-- Entry (i 0, i 1) of A·B: the contraction over the 16384 columns of A and rows of B. -/
def product (A : (⟨2, ![16, 16384]⟩ : Shape).Idx → EReal) (B : (⟨2, ![16384, 16384]⟩ : Shape).Idx → EReal) :
    (⟨2, ![16, 16384]⟩ : Shape).Idx → EReal :=
  fun i => ∑ k : Fin 16384, A (ix2 (i 0) k) * B (ix2 k (i 1))

end Cert.Product

end
-- ==== Proof.Result.lean ====
/-
  The kernel's result array.

  Column block n of the result is written once, by the last point 16·n + 15 of run n, and holds the accumulator
  there:  Σ_{s<16} Σ_{k<1024} A[p, 1024·s + k] · B[1024·s + k, 2048·n + q]  at row p, local column q. Taking the
  contraction 1024 terms at a time is a regrouping of one sum, so this is entry (p, 2048·n + q) of the product A·B.
  The eight written blocks are columns 2048·n .. 2048·n + 2047 for n < 8: together every column. So the array ends
  holding A·B.
-/
import proofs.«159576_j28776280883297_1_alg».proof.Proof.Fold
import proofs.«159576_j28776280883297_1_alg».proof.Proof.Regroup
import proofs.«159576_j28776280883297_1_alg».proof.Proof.Product

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value ValueIdx
open Cert.KernelIdeal.Blocks (lhsArr rhsArr)
open Cert.Product (product)

variable (m : (ℓ : Loc nD τ sig) → Buf (Elt Ideal) ℓ) (ρ : Dev nD → PrngReg)

/-- The accumulator after the last point of a run, at local entry j, is entry (j 0, col) of A·B, where col is j's
    column inside the run's column block: sixteen slices of 1024 terms are the whole contraction, regrouped. -/
theorem acc_is_product (c : Dev nD) (t : Fin cfg0.N) (h15 : t.val % 16 = 15) (j : S16x2048.Idx) (col : Fin 16384)
    (hcol : col.val = t.val / 16 * 2048 + (j 1).val) :
    (outsAt0 m c t.val t.isLt).2 j = product (lhsArr m c) (rhsArr m c) (ix2 (j 0) col) := by
  rw [Fold.scratch_after_run m c t h15 j]
  have hterm : ∀ k : Fin 16384, lhsArr m c (ix2 (j 0) k) * rhsArr m c (ix2 k col) = Fold.term m c (j 0) col.val k.val :=
    fun k => by unfold Fold.term; rw [dif_pos ⟨k.isLt, col.isLt⟩]
  have hsplit : ∑ k : Fin 16384, Fold.term m c (j 0) col.val k.val
      = ∑ s ∈ Finset.range 16, ∑ k : Fin 1024, Fold.term m c (j 0) col.val (s * 1024 + k.val) :=
    Cert.Regroup.sum_fin_blocks (fun k => Fold.term m c (j 0) col.val k) 16 1024
  show _ = ∑ k : Fin 16384, lhsArr m c (ix2 (j 0) k) * rhsArr m c (ix2 k col)
  rw [Finset.sum_congr rfl (fun k _ => hterm k), hsplit]
  refine Finset.sum_congr rfl fun s hs => ?_
  have hs' : s < 16 := Finset.mem_range.mp hs
  unfold Fold.addend
  refine Finset.sum_congr rfl fun k _ => ?_
  have e1 : (16 * (t.val / 16) + s) / 16 * 2048 + (j 1).val = col.val := by omega
  have e2 : (16 * (t.val / 16) + s) % 16 * 1024 + k.val = s * 1024 + k.val := by omega
  rw [e1, e2]

/-- A layout fact, for any function G on the result's indices: a [16,2048] block X written back at point t is G's
    block there as soon as X at local entry j is G at row j 0 and column 2048·(t / 16) + j 1. -/
theorem written_block_eq (t : Fin cfg0.N) (G : Vec Ideal S16x16384 .f32) (X : Vec Ideal S16x2048 .f32)
    (h : ∀ (j : S16x2048.Idx) (col : Fin 16384), col.val = t.val / 16 * 2048 + (j 1).val → X j = G (ix2 (j 0) col)) :
    (cfg0.win 2).cut (grid0.coords t) X = ((cfg0.win 2).blk t).view.read (Elt Ideal) G := by
  have hN : t.val < 128 := lt_of_lt_of_eq t.isLt (show cfg0.N = 128 from N_0)
  funext j
  show X j = G (((cfg0.win 2).blk t).view.emb j)
  obtain ⟨-, -, -, -, e4, e5⟩ := Blocks.index_maps t
  have hj1 : (j 1).val < 2048 := (j 1).isLt
  have hcol : t.val / 16 * 2048 + (j 1).val < 16384 := by omega
  have he : ((cfg0.win 2).blk t).view.emb j = ix2 (j 0) ⟨t.val / 16 * 2048 + (j 1).val, hcol⟩ := by
    funext a; apply Fin.ext
    match a with
    | ⟨0, _⟩ => show win0_2.index t (0 : Fin 2) * 16 + 1 * (j 0).val = (j 0).val; omega
    | ⟨1, _⟩ => show win0_2.index t (1 : Fin 2) * 2048 + 1 * (j 1).val = t.val / 16 * 2048 + (j 1).val; omega
  rw [he]
  exact h j ⟨_, hcol⟩ rfl

/-- What a writing point writes back is its block of A·B: the output block there is the accumulator, and the
    accumulator after a run is the product at the block's entries. -/
theorem flushed_eq (c : Dev nD) (t : Fin cfg0.N) (hf : (cfg0.win 2).flush t = true) :
    (dats m 0 c).flushed 2 t = ((cfg0.win 2).blk t).view.read (Elt Ideal) (product (lhsArr m c) (rhsArr m c)) := by
  have h15 : t.val % 16 = 15 := (flush0_2 t).mp hf
  rw [Value.flushed2, Fold.out_eq_acc m c t h15]
  exact written_block_eq t _ _ (fun j col hcol => acc_is_product m c t h15 j col hcol)

/-- Every entry of the result lies in the block some writing point writes: column q in the block of point
    16·(q / 2048) + 15. -/
theorem cover (i : S16x16384.Idx) :
    ∃ t : Fin cfg0.N, (cfg0.win 2).flush t = true ∧ i ∈ ((cfg0.win 2).blk t).view.set := by
  have hi0 : (i 0).val < 16 := (i 0).isLt
  have hi1 : (i 1).val < 16384 := (i 1).isLt
  have hN : cfg0.N = 128 := N_0
  obtain ⟨t, tv⟩ : ∃ t : Fin cfg0.N, t.val = 16 * ((i 1).val / 2048) + 15 := ⟨⟨_, by omega⟩, rfl⟩
  refine ⟨t, (flush0_2 t).mpr (by omega), ?_⟩
  show i ∈ ((View.whole main_v0).slice (win0_2.rect t)).set
  rw [View.set_slice_whole, Rect.mem_set_unit]
  obtain ⟨-, -, -, -, e4, e5⟩ := Blocks.index_maps t
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 2048 ≤ (i 1).val ∧ (i 1).val < win0_2.index t (1 : Fin 2) * 2048 + 2048; omega

/-- The result array after the run is A·B. -/
theorem final (c : Dev nD) : (dats m 0 c).arrAt 2 cfg0.N = product (lhsArr m c) (rhsArr m c) :=
  (dats m 0 c).arrAt_eq_of_cover 2 (product (lhsArr m c) (rhsArr m c)) (flushed_eq m c) cover

/-- The kernel's run: it terminates with the result at the product of its arguments, the arguments unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.Ref.lean ====
/-
  The reference is one contraction of its two arguments over the shared axis of length 16384: read at an entry it is
  the specification's sum, term for term.
-/
import proofs.«159576_j28776280883297_1_alg».proof.Proof.Gen.ReferenceIdeal.Read
import proofs.«159576_j28776280883297_1_alg».proof.Proof.Product

noncomputable section

open Idealize.ShloMosaic Idealize.ShloMosaic.TcCoe Idealize.SL.Sem

namespace Cert.ReferenceIdeal.RefValue

open Cert.ReferenceIdeal Cert.ReferenceIdeal.Gen ValueIdx

/-- The reference's one operation is the product of its operands. -/
theorem reference_is_product (x0 : (⟨S16x16384, .f32⟩ : BufTy).Contents (Elt Ideal)) (x1 : (⟨S16384x16384, .f32⟩ : BufTy).Contents (Elt Ideal)) :
    Read.val_main_v0 (F := Ideal) x0 x1 = Cert.Product.product x0 x1 := by
  funext i
  rw [Read.val_main_v0_apply]
  have el : ∀ k : Fin 16384, Read.lidx_main_v0 i k = ix2 (i 0) k := fun k => funext fun a => Fin.ext (by
    match a with
    | ⟨0, _⟩ => rfl
    | ⟨1, _⟩ => rfl)
  have er : ∀ k : Fin 16384, Read.ridx_main_v0 i k = ix2 k (i 1) := fun k => funext fun a => Fin.ext (by
    match a with
    | ⟨0, _⟩ => rfl
    | ⟨1, _⟩ => rfl)
  unfold Cert.Product.product
  exact Finset.sum_congr rfl fun k _ => by rw [el k, er k]; rfl

end Cert.ReferenceIdeal.RefValue

end
-- ==== Proof.lean ====
/-
  A [16,16384] × [16384,16384] product computed block by block is the product computed in one piece.

  The kernel walks a grid of 8 column blocks by 16 contraction blocks. For each column block it clears an accumulator
  at the first contraction block, adds at every contraction block the product of a [16,1024] slice of the left operand
  with a [1024,2048] slice of the right one (the operands are narrowed before the product, which changes nothing on
  extended reals), and writes the accumulator out after the sixteenth. The reference contracts the two operands once.

  At row p and column q both are sums of the same 16384 products A[p,k]·B[k,q]: the reference over k in one sum, the
  kernel as  0 + Σ_{s<16} Σ_{j<1024}  of the products with k = 1024·s + j. Only the grouping of one sum differs, and
  addition on the extended reals is a commutative monoid, so the two agree whatever the entries are; the precondition
  (finite inputs) is never opened.

  The kernel's value is read off its frame run: what each control case leaves is one expression of the loaded blocks
  (Step), the blocks are slices of the operands (Blocks), the accumulator after a run is the sum of the run's sixteen
  slices (Fold), the written blocks cover the result, which is therefore the product (Result, with the regrouping law of
  Regroup). The reference's one operation read at an entry is the same sum (Ref). Nothing was rewritten by the
  idealization, so the preservation claim is empty.
-/
import proofs.«159576_j28776280883297_1_alg».proof.Defs
import proofs.«159576_j28776280883297_1_alg».proof.Proof.Gen.Kernel
import proofs.«159576_j28776280883297_1_alg».proof.Proof.Gen.Kernel.Skeleton
import proofs.«159576_j28776280883297_1_alg».proof.Proof.Gen.Kernel.Launch
import proofs.«159576_j28776280883297_1_alg».proof.Proof.Gen.Kernel.Points
import proofs.«159576_j28776280883297_1_alg».proof.Proof.Gen.Kernel.Frame
import proofs.«159576_j28776280883297_1_alg».proof.Proof.Gen.KernelIdeal
import proofs.«159576_j28776280883297_1_alg».proof.Proof.Gen.KernelIdeal.Skeleton
import proofs.«159576_j28776280883297_1_alg».proof.Proof.Gen.KernelIdeal.Launch
import proofs.«159576_j28776280883297_1_alg».proof.Proof.Gen.KernelIdeal.Points
import proofs.«159576_j28776280883297_1_alg».proof.Proof.Gen.KernelIdeal.Frame
import proofs.«159576_j28776280883297_1_alg».proof.Proof.Gen.ReferenceIdeal
import proofs.«159576_j28776280883297_1_alg».proof.Proof.Gen.Pre_finite_inputs
import proofs.«159576_j28776280883297_1_alg».proof.Proof.Gen.KernelIdeal.Value
import proofs.«159576_j28776280883297_1_alg».proof.Proof.Gen.ReferenceIdeal.Run
import proofs.«159576_j28776280883297_1_alg».proof.Proof.Gen.ReferenceIdeal.Read
import proofs.«159576_j28776280883297_1_alg».proof.Proof.Result
import proofs.«159576_j28776280883297_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the product of their (agreeing) arguments: the kernel by its sixteen-slice accumulation,
    the reference by its one contraction. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.reference_is_product _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
